-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x128 .f32) (main_arg1 : IVec S2x320000 32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S10000x10000 : Shape := ⟨2, ![10000, 10000]⟩
abbrev S1024x64 : Shape := ⟨2, ![1024, 64]⟩
abbrev S1024x1024 : Shape := ⟨2, ![1024, 1024]⟩

abbrev nBuf : Space → Nat
  | .hbm => 123
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S10000x64, .f32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x64, .f32⟩
  | .hbm, ⟨56, _⟩ => ⟨S330000x1, .f32⟩
  | .hbm, ⟨57, _⟩ => ⟨S330000x64, .f32⟩
  | .hbm, ⟨58, _⟩ => ⟨S330000x64, .f32⟩
  | .hbm, ⟨59, _⟩ => ⟨S_, .f32⟩
  | .hbm, ⟨60, _⟩ => ⟨S10000x64, .f32⟩
  | .hbm, ⟨61, _⟩ => ⟨S330000x1, .i32⟩
  | .hbm, ⟨62, _⟩ => ⟨S10000x64, .f32⟩
  | .hbm, ⟨63, _⟩ => ⟨S1x64, .f32⟩
  | .hbm, ⟨64, _⟩ => ⟨S10000x64, .f32⟩
  | .hbm, ⟨65, _⟩ => ⟨S10000x64, .f32⟩
  | .hbm, ⟨66, _⟩ => ⟨S_, .f32⟩
  | .hbm, ⟨67, _⟩ => ⟨S10000x64, .f32⟩
  | .hbm, ⟨68, _⟩ => ⟨S10000x64, .f32⟩
  | .hbm, ⟨69, _⟩ => ⟨S10000x64, .f32⟩
  | .hbm, ⟨70, _⟩ => ⟨S_, .f32⟩
  | .hbm, ⟨71, _⟩ => ⟨S330000, .f32⟩
  | .hbm, ⟨72, _⟩ => ⟨S_, .f32⟩
  | .hbm, ⟨73, _⟩ => ⟨S10000, .f32⟩
  | .hbm, ⟨74, _⟩ => ⟨S330000x1, .i32⟩
  | .hbm, ⟨75, _⟩ => ⟨S10000, .f32⟩
  | .hbm, ⟨76, _⟩ => ⟨S_, .f32⟩
  | .hbm, ⟨77, _⟩ => ⟨S10000, .f32⟩
  | .hbm, ⟨78, _⟩ => ⟨S10000, .i1⟩
  | .hbm, ⟨79, _⟩ => ⟨S10000, .f32⟩
  | .hbm, ⟨80, _⟩ => ⟨S_, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S_, .i32⟩
  | .hbm, ⟨85, _⟩ => ⟨S330000, .i32⟩
  | .hbm, ⟨86, _⟩ => ⟨S330000, .i1⟩
  | .hbm, ⟨87, _⟩ => ⟨S_, .i32⟩
  | .hbm, ⟨88, _⟩ => ⟨S330000, .i32⟩
  | .hbm, ⟨89, _⟩ => ⟨S330000, .i32⟩
  | .hbm, ⟨90, _⟩ => ⟨S330000, .i32⟩
  | .hbm, ⟨91, _⟩ => ⟨S330000x1, .i32⟩
  | .hbm, ⟨92, _⟩ => ⟨S330000, .f32⟩
  | .hbm, ⟨93, _⟩ => ⟨S_, .i32⟩
  | .hbm, ⟨94, _⟩ => ⟨S330000, .i32⟩
  | .hbm, ⟨95, _⟩ => ⟨S330000, .i1⟩
  | .hbm, ⟨96, _⟩ => ⟨S_, .i32⟩
  | .hbm, ⟨97, _⟩ => ⟨S330000, .i32⟩
  | .hbm, ⟨98, _⟩ => ⟨S330000, .i32⟩
  | .hbm, ⟨99, _⟩ => ⟨S330000, .i32⟩
  | .hbm, ⟨100, _⟩ => ⟨S330000x1, .i32⟩
  | .hbm, ⟨101, _⟩ => ⟨S330000, .f32⟩
  | .hbm, ⟨102, _⟩ => ⟨S330000, .f32⟩
  | .hbm, ⟨103, _⟩ => ⟨S_, .i32⟩
  | .hbm, ⟨104, _⟩ => ⟨S330000, .i32⟩
  | .hbm, ⟨105, _⟩ => ⟨S330000, .i1⟩
  | .hbm, ⟨106, _⟩ => ⟨S_, .i32⟩
  | .hbm, ⟨107, _⟩ => ⟨S330000, .i32⟩
  | .hbm, ⟨108, _⟩ => ⟨S330000, .i32⟩
  | .hbm, ⟨109, _⟩ => ⟨S330000, .i32⟩
  | .hbm, ⟨110, _⟩ => ⟨S330000x1, .i32⟩
  | .hbm, ⟨111, _⟩ => ⟨S330000x64, .f32⟩
  | .hbm, ⟨112, _⟩ => ⟨S330000x1, .f32⟩
  | .hbm, ⟨113, _⟩ => ⟨S330000x64, .f32⟩
  | .hbm, ⟨114, _⟩ => ⟨S330000x64, .f32⟩
  | .hbm, ⟨115, _⟩ => ⟨S_, .f32⟩
  | .hbm, ⟨116, _⟩ => ⟨S10000x64, .f32⟩
  | .hbm, ⟨117, _⟩ => ⟨S330000x1, .i32⟩
  | .hbm, ⟨118, _⟩ => ⟨S10000x64, .f32⟩
  | .hbm, ⟨119, _⟩ => ⟨S1x64, .f32⟩
  | .hbm, ⟨120, _⟩ => ⟨S10000x64, .f32⟩
  | .hbm, ⟨121, _⟩ => ⟨S10000x64, .f32⟩
  | .hbm, ⟨122, _⟩ => ⟨S10000x10000, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x64.size a < S10000x64.size a
  hwx0_0 : ∀ i : grid0.Coords, EltTy.bits .f32 = 32 ∨ (Rect.unit (s := S10000x64) (fun a => cc0_transform_0 i a * S1024x64.size a) (fun a => (Pipeline.Clip.of (cc0_transform_0 i a) (S1024x64.size a) (S10000x64.size a)).extent (S1024x64.size a)) fun a => Pipeline.Clip.inb (Pipeline.Clip.ok_of (hstart0_0 i a))).WholeWords (EltTy.packing .f32)
  hwxs0_0 : ∀ i : grid0.Coords, EltTy.bits .f32 = 32 ∨ (Rect.unit (s := S1024x64) (fun _ => 0) (fun a => (Pipeline.Clip.of (cc0_transform_0 i a) (S1024x64.size a) (S10000x64.size a)).extent (S1024x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x64.size a < S10000x64.size a
  hwx0_1 : ∀ i : grid0.Coords, EltTy.bits .f32 = 32 ∨ (Rect.unit (s := S10000x64) (fun a => cc0_transform_1 i a * S1024x64.size a) (fun a => (Pipeline.Clip.of (cc0_transform_1 i a) (S1024x64.size a) (S10000x64.size a)).extent (S1024x64.size a)) fun a => Pipeline.Clip.inb (Pipeline.Clip.ok_of (hstart0_1 i a))).WholeWords (EltTy.packing .f32)
  hwxs0_1 : ∀ i : grid0.Coords, EltTy.bits .f32 = 32 ∨ (Rect.unit (s := S1024x64) (fun _ => 0) (fun a => (Pipeline.Clip.of (cc0_transform_1 i a) (S1024x64.size a) (S10000x64.size a)).extent (S1024x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S10000x10000.size a
  hwx0_2 : ∀ i : grid0.Coords, EltTy.bits .f32 = 32 ∨ (Rect.unit (s := S10000x10000) (fun a => cc0_transform_2 i a * S1024x1024.size a) (fun a => (Pipeline.Clip.of (cc0_transform_2 i a) (S1024x1024.size a) (S10000x10000.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S10000x10000.size a)).extent (S1024x1024.size a)) fun a => (Nat.zero_add _).trans_le (Pipeline.Clip.extent_le (Pipeline.Clip.ok_of (hstart0_2 i a)))).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpecClip (Memref.whole main_v87) S1024x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v87) S1024x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v88) S1024x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x64 : Shape := ⟨2, ![10000, 64]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 132
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x64, .f32⟩
  | 5 => ⟨S64, .f32⟩
  | 6 => ⟨S10000, .i32⟩
  | 7 => ⟨S1x320000, .i32⟩
  | 8 => ⟨S320000, .i32⟩
  | 9 => ⟨S330000, .i32⟩
  | 10 => ⟨S1x320000, .i32⟩
  | 11 => ⟨S320000, .i32⟩
  | 12 => ⟨S330000, .i32⟩
  | 13 => ⟨S10000x64, .f32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000x64, .f32⟩
  | 56 => ⟨S330000x1, .f32⟩
  | 57 => ⟨S330000x64, .f32⟩
  | 58 => ⟨S330000x64, .f32⟩
  | 59 => ⟨S_, .f32⟩
  | 60 => ⟨S10000x64, .f32⟩
  | 61 => ⟨S330000x1, .i32⟩
  | 62 => ⟨S10000x64, .f32⟩
  | 63 => ⟨S1x64, .f32⟩
  | 64 => ⟨S10000x64, .f32⟩
  | 65 => ⟨S10000x64, .f32⟩
  | 66 => ⟨S_, .f32⟩
  | 67 => ⟨S10000x64, .f32⟩
  | 68 => ⟨S10000x64, .f32⟩
  | 69 => ⟨S10000x64, .f32⟩
  | 70 => ⟨S_, .f32⟩
  | 71 => ⟨S330000, .f32⟩
  | 72 => ⟨S_, .f32⟩
  | 73 => ⟨S10000, .f32⟩
  | 74 => ⟨S330000x1, .i32⟩
  | 75 => ⟨S10000, .f32⟩
  | 76 => ⟨S_, .f32⟩
  | 77 => ⟨S10000, .f32⟩
  | 78 => ⟨S10000, .i1⟩
  | 79 => ⟨S10000, .f32⟩
  | 80 => ⟨S_, .f32⟩
  | 81 => ⟨S_, .f32⟩
  | 82 => ⟨S10000, .f32⟩
  | 83 => ⟨S10000, .f32⟩
  | 84 => ⟨S_, .i32⟩
  | 85 => ⟨S330000, .i32⟩
  | 86 => ⟨S330000, .i1⟩
  | 87 => ⟨S_, .i32⟩
  | 88 => ⟨S330000, .i32⟩
  | 89 => ⟨S330000, .i32⟩
  | 90 => ⟨S330000, .i32⟩
  | 91 => ⟨S330000x1, .i32⟩
  | 92 => ⟨S330000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000, .f32⟩
  | 102 => ⟨S330000, .f32⟩
  | 103 => ⟨S_, .i32⟩
  | 104 => ⟨S330000, .i32⟩
  | 105 => ⟨S330000, .i1⟩
  | 106 => ⟨S_, .i32⟩
  | 107 => ⟨S330000, .i32⟩
  | 108 => ⟨S330000, .i32⟩
  | 109 => ⟨S330000, .i32⟩
  | 110 => ⟨S330000x1, .i32⟩
  | 111 => ⟨S330000x64, .f32⟩
  | 112 => ⟨S330000x1, .f32⟩
  | 113 => ⟨S330000x64, .f32⟩
  | 114 => ⟨S330000x64, .f32⟩
  | 115 => ⟨S_, .f32⟩
  | 116 => ⟨S10000x64, .f32⟩
  | 117 => ⟨S330000x1, .i32⟩
  | 118 => ⟨S10000x64, .f32⟩
  | 119 => ⟨S1x64, .f32⟩
  | 120 => ⟨S10000x64, .f32⟩
  | 121 => ⟨S10000x64, .f32⟩
  | 122 => ⟨S64x10000, .f32⟩
  | 123 => ⟨S10000x10000, .f32⟩
  | 124 => ⟨S10000x10000, .f32⟩
  | 125 => ⟨S10000x10000, .f32⟩
  | 126 => ⟨S_, .f32⟩
  | 127 => ⟨S10000x10000, .f32⟩
  | _ => ⟨S10000x128, .f32⟩

abbrev hbmTy0_1 (i : Nat) : BufTy := match i % 128 with
  | 0 => ⟨S10000x10000, .f32⟩
  | 1 => ⟨S_, .f32⟩
  | 2 => ⟨S10000x10000, .f32⟩
  | 3 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.GramSpec.lean ====
/-
  The function both programs compute from the node features `h` (10000 rows of 64 entries), over the extended
  reals: entry (i, j) of the result is the logistic function of the inner product of rows i and j of `h`,
  `1 / (1 + e^(-⟨h i, h j⟩))`.
-/
import Idealize.ShloMosaic.PureOps.Ideal
import Idealize.ShloMosaic.PureOps.Ideal.Laws
import Idealize.ShloMosaic.Lib.ValueIdx

noncomputable section

open scoped BigOperators

namespace Cert.GramSpec

open Idealize.ShloMosaic Idealize.ShloMosaic.ValueIdx

/-- Entry (i, j): the logistic function of the inner product of rows i and j of `h`. -/
def gramLogistic (h : FVec Ideal ⟨2, ![10000, 64]⟩ .f32) : FVec Ideal ⟨2, ![10000, 10000]⟩ .f32 :=
  fun i => Ideal.logistic (∑ k : Fin 64, h (ix2 (i 0) k) * h (ix2 (i 1) k))

theorem gramLogistic_apply (h : FVec Ideal ⟨2, ![10000, 64]⟩ .f32) (p q : Fin 10000) :
    gramLogistic h (ix2 p q) = Ideal.logistic (∑ k : Fin 64, h (ix2 p k) * h (ix2 q k)) := rfl

end Cert.GramSpec

end
-- ==== Proof.GramRef.lean ====
/-
  The reference's result is the specification applied to the reference's own node features: entry (i, j) of its
  last value is 1 / (1 + e^(-s)), with s the inner product of rows i and j of the features, which is the logistic
  function of s. The reference forms s as the product of the features with their own transpose, negates it,
  exponentiates, adds the constant one and divides the constant one by the sum.
-/
import proofs.«117433_j86045374808276_1_alg».proof.Proof.RefReadP
import proofs.«117433_j86045374808276_1_alg».proof.Proof.GramSpec

noncomputable section

open scoped BigOperators

namespace Cert.ReferenceIdeal.GramRef

open Cert.ReferenceIdeal Cert.ReferenceIdeal.ReadP Idealize.ShloMosaic Idealize.ShloMosaic.ValueIdx

/-- The pattern of the float `1.0` denotes the extended real `1`. -/
theorem ofBits_one : Ideal.ofBits .f32 0x3F800000#32 = 1 := by
  simp [Ideal.ofBits, Ideal.ieee, -EReal.coe_mul]; norm_num

/-- The product's left operand index at (i, k): row `i 0`, column `k` of the features. -/
theorem lidx_eq (i : S10000x10000.Idx) (k : Fin 64) : lidx_main_v89 i k = ix2 (i 0) k :=
  funext fun a => Fin.ext (by
    match a with
    | ⟨0, _⟩ => rfl
    | ⟨1, _⟩ => rfl)

/-- The product's right operand is the transposed features: its index at (i, k), carried back through the
    transposition, is row `i 1`, column `k` of the features. -/
theorem ridx_eq (i : S10000x10000.Idx) (k : Fin 64) : idx_main_v88 (ridx_main_v89 i k) = ix2 (i 1) k :=
  funext fun a => Fin.ext (by
    match a with
    | ⟨0, _⟩ => rfl
    | ⟨1, _⟩ => rfl)

/-- One over one plus the exponential of the negation, spelt in the host's operations, is the logistic function. -/
theorem host_logistic (s : Ideal .f32) :
    FloatOps.hostDivf (1 : Ideal .f32) (FloatOps.addf 1 (FloatOps.hostUnary .exp (FloatOps.hostNegf s))) = Ideal.logistic s := rfl

theorem ref_eq (x0 : (⟨S10000x128, .f32⟩ : BufTy).Contents (Elt Ideal)) (x1 : (⟨S2x320000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v95 (F := Ideal) x0 x1 x2 x3 x4 x5 = Cert.GramSpec.gramLogistic (val_main_v87 (F := Ideal) x0 x1 x2 x3 x4 x5) := by
  funext i
  rw [val_main_v95_apply, val_main_v94_apply, val_main_cst_21_apply, val_main_v93_apply, val_main_v92_apply,
    val_main_cst_20_apply, val_main_v91_apply, val_main_v90_apply, val_main_v89_apply]
  simp only [val_main_v88_apply, lidx_eq, ridx_eq]
  rw [Ideal.ofBits_def, ofBits_one]
  exact host_logistic _

end Cert.ReferenceIdeal.GramRef

end
-- ==== Proof.GramHostIdeal.lean ====
/-
  The host part of the program before the kernel: the two graph-convolution layers, as seven stretches of array
  operations (the stretches between and inside the calls of `where` and `relu`). What every buffer holds when the
  kernel starts is the fold of those operations over the memory at the start; the six argument arrays are written
  by none of them.
-/
import proofs.«117433_j86045374808276_1_alg».proof.Proof.Gen.KernelIdeal.Launch
import Idealize.ShloMosaic.Lib.Pipeline.FrameBody
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel starts: the memory at the start after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is those stretches and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 4000000 in
/-- No host operation writes argument 0: the kernel finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 1: the kernel finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 2: the kernel finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 3: the kernel finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 4: the kernel finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 5: the kernel finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Gram

end
-- ==== Proof.GramHostEq.lean ====
/-
  The host operations before the kernel are, operation for operation, the reference's first operations: the node
  features the kernel reads are the reference's features, as the same function of the six argument arrays.
-/
import proofs.«117433_j86045374808276_1_alg».proof.Proof.GramHostIdeal
import proofs.«117433_j86045374808276_1_alg».proof.Proof.RefReadP
import Idealize.ShloMosaic.Lib.StableHlo.Run

set_option maxRecDepth 16384

noncomputable section

namespace Cert.KernelIdeal.Gram

open Cert.KernelIdeal Cert.KernelIdeal.Gen Idealize.ShloMosaic Idealize.ShloMosaic.TcCoe Idealize.SL.Sem
open Idealize.ShloMosaic.StableHlo

set_option maxHeartbeats 40000000 in
theorem V_h {F : FTy → Type} [FloatOps F] (m : (ℓ : Loc nD τ sig) → Buf (Elt F) ℓ) (c : Dev nD) :
    V m c main_v87 = Cert.ReferenceIdeal.ReadP.val_main_v87 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [V]
  simp only [hostOps0, hostOps0_1, hostOps0_2, hostOps0_3, hostOps0_4, hostOps0_5, hostOps0_6, List.flatten_cons, List.flatten_nil, List.append_nil, List.cons_append, List.nil_append]
  after_results_simp
  (try simp only [TRef.ofBuf, TRef.toBuf, cast_eq])
  rfl

end Cert.KernelIdeal.Gram

end
-- ==== Proof.GramHost.lean ====
/-
  The host part of the program before the kernel: the two graph-convolution layers, as seven stretches of array
  operations (the stretches between and inside the calls of `where` and `relu`). What every buffer holds when the
  kernel starts is the fold of those operations over the memory at the start; the six argument arrays are written
  by none of them.
-/
import proofs.«117433_j86045374808276_1_alg».proof.Proof.Gen.Kernel.Launch
import Idealize.ShloMosaic.Lib.Pipeline.FrameBody
import Idealize.ShloMosaic.Lib.Tactic

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel starts: the memory at the start after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is those stretches and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 4000000 in
/-- No host operation writes argument 0: the kernel finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 1: the kernel finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 2: the kernel finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 3: the kernel finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 4: the kernel finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation writes argument 5: the kernel finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Gram

end
-- ==== Proof.GramBody.lean ====
/-
  One grid point of the kernel: it loads the whole row block (1024 x 64) and the whole column block (1024 x 64)
  from their staging buffers and stores, over the whole output staging buffer (1024 x 1024), the logistic function
  of every inner product of a row of the first with a row of the second. The two input buffers are left as they
  were found; what the output buffer held before is not read.
-/
import proofs.«117433_j86045374808276_1_alg».proof.Proof.Gen.Kernel.Launch
import proofs.«117433_j86045374808276_1_alg».proof.Proof.Gen.Kernel.Skeleton
import proofs.«117433_j86045374808276_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 1024 x 1024 output block, as the rectangle the body's one store goes through. -/
abbrev rOut : Rect S1024x1024 := Rect.unit (s := S1024x1024) ![0, 0] S1024x1024.size inb_S1024x1024_S1024x1024_0_0

/-- The one store covers the output buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

theorem zero_off : (![0, 0] : Fin 2 → Nat) = fun _ => 0 := funext fun a => by fin_cases a <;> rfl

set_option maxHeartbeats 1000000 in
/-- The body on whole staging memrefs holding `x0`, `x1` and anything: it ends with the inputs' buffers as they
    were and the output's at the body's one pure value of them. -/
theorem sound_kernel (c : Dev nD) (E : Set ℕ) (i : grid0.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0__sigmoid_outer_kernel i arg2 harg2 arg3 harg3 arg4 harg4) K := by
  simp only [cc0__sigmoid_outer_kernel_eq_skeleton]; unfold cc0__sigmoid_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero zero_off]
  simp only [View.readAt_eq_ld, View.ld_unit_zero (S := S1024x64) zero_off]

end Cert.Kernel.Gram

end
-- ==== Proof.GramData.lean ====
/-
  The proof data of the kernel's run over its 10 x 10 grid. Window 0 (the row block, 1024 x 64) and window 1 (the column block,
  1024 x 64) read ONE array, the node features, so that array's ownership is dealt to them in two halves; window 2
  is the 1024 x 1024 output block. The last block on either axis overhangs the array (10000 = 9 * 1024 + 784) and
  is cut at the array's end; what a staging buffer holds past the cut is not named. Here: what each
  staging buffer holds after the body at each point, and how the arrays' ownership reaches the windows.
-/
import proofs.«117433_j86045374808276_1_alg».proof.Proof.GramHost
import proofs.«117433_j86045374808276_1_alg».proof.Proof.GramBody
import Idealize.ShloMosaic.Lib.Pipeline.Kit
import Idealize.ShloMosaic.Lib.Pipeline.Frame

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word, the filler of the part of a staging buffer past the array's end (never read back). -/
abbrev fill0 {s : Shape} : s.Idx → Elt F .f32 := fun _ => Scalar.ofBits .f32 0#32

/-- The row block at point `t`: rows of the node features inside the array. -/
def rowBlk (c : Dev nD) (t : Fin cfg0.N) : (win0_0.xblock (grid0.coords t)).Idx → Elt F .f32 :=
  (win0_0.blk t).view.read (Elt F) (V m c (Pipeline.arrRef spec0 0))
/-- The column block at point `t`. -/
def colBlk (c : Dev nD) (t : Fin cfg0.N) : (win0_1.xblock (grid0.coords t)).Idx → Elt F .f32 :=
  (win0_1.blk t).view.read (Elt F) (V m c (Pipeline.arrRef spec0 1))

/-- The two input blocks filled out to the staging buffers' size. -/
def rowBuf (c : Dev nD) (t : Fin cfg0.N) : S1024x64.Idx → Elt F .f32 := win0_0.fill (grid0.coords t) fill0 (rowBlk m c t)
def colBuf (c : Dev nD) (t : Fin cfg0.N) : S1024x64.Idx → Elt F .f32 := win0_1.fill (grid0.coords t) fill0 (colBlk m c t)

/-- The proof data: the arrays as the host part left them; after the body the input buffers hold their blocks and
    the output buffer the body's value of them (on the part inside the array: all three windows are loose); the
    node features are held in two halves, one per input window. -/
def dat (c : Dev nD) : Dat τ (Elt F) Unit ℕ (UR sig nD τ) ℕ cfg0 c where
  A w := V m c (Pipeline.arrRef spec0 w)
  after w t := match w with
    | ⟨0, _⟩ => rowBuf m c t
    | ⟨1, _⟩ => colBuf m c t
    | ⟨2, _⟩ => k0_pay1 (rowBuf m c t) (colBuf m c t)
  Φ _ := iprop(emp)
  q w := match w with
    | ⟨0, _⟩ => fullShare.left
    | ⟨1, _⟩ => fullShare.right
    | ⟨2, _⟩ => fullShare
  owed _ := 0

theorem dat_A (c : Dev nD) (w : Fin cfg0.W) : (dat m c).A w = V m c (Pipeline.arrRef spec0 w) := by dsimp only [dat]

/-- The buffers behind the kernel's arrays: the node features and the result. -/
theorem arr_image : Finset.univ.image (Pipeline.arrRef spec0) = {main_v87, main_v88} := by decide

/-- The node features whole are their two halves, one for each input window; the result is the output window's. -/
theorem arrays_of_bufs (c : Dev nD) :
    (Pipeline.arrBufs (Ix := Unit) (Name := ℕ) (U := UR sig nD τ) (Lvl := ℕ) spec0 c (V m c) : sProp 𝕄) ⊢ (dat m c).arrays (dat m c).A := by
  unfold Pipeline.arrBufs Dat.arrays
  rw [arr_image, bigSep_W0, BI.bigSep_insert (by decide : main_v87 ∉ ({main_v88} : Finset (Ref sig .tc))), BI.bigSep_singleton]
  rw [(arr_whole0 0).set_eq_univ, (arr_whole0 2).set_eq_univ]
  have h0 : (dat m c).share 0 = fullShare.left := rfl
  have h1 : (dat m c).share 1 = fullShare.right := rfl
  have h2 : (dat m c).share 2 = fullShare := rfl
  rw [h0, h1, h2, dat_A, dat_A, dat_A]
  change iprop((((c : Thread nD τ).loc main_v87) ↦{fullShare} V m c main_v87) ∗ (((c : Thread nD τ).loc main_v88) ↦{fullShare} V m c main_v88)) ⊢ _
  refine (sep_mono (pointsTo_share (PosShare.mem_left_op_right fullShare)).1 .rfl).trans ?_
  iintro ⟨⟨Hl, Hr⟩, H88⟩
  isplitl [Hl]; · iexact Hl
  isplitl [Hr]; · iexact Hr
  iexact H88

end Cert.Kernel.Gram

end
-- ==== Proof.GramLaunch.lean ====
/-
  The kernel's run over its grid, stated once for any choice of windows whose staging contents are left unnamed:
  from any memory with zero counters every weakly fair execution of the program ends, every buffer that is no
  array of the kernel (the six arguments among them) ends as the host part left it, and each array of the kernel
  ends at contents the proof data allows. With every window unnamed the body has nothing to say beyond that it
  runs: that is the frame — the program ends, faults nowhere, and leaves its arguments as they were.
-/
import proofs.«117433_j86045374808276_1_alg».proof.Proof.GramData

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: every staging cell's owner at round 0 and a token for every transfer of the pipeline. -/
def u₀ : UR sig nD τ := initOf (Pipeline.cells cfgs cellOf_inj) (Pipeline.launchToks cfgs cellOf_inj)

set_option maxHeartbeats 4000000 in
set_option backward.isDefEq.respectTransparency.types false in
/-- THE RUN, the windows `fgt` marks left unnamed: from any memory with zero counters every weakly fair execution of the
    program ends; each array of the kernel then holds contents the proof data allows after every write-back, and every
    other buffer that is no staging buffer what the host part left in it. -/
theorem run_fgt (fgt : Fin cfg0.W → Bool)
    (hbody : ∀ c, BodyObligationLoose (dat m c) (defs₀ (F := F)) Variants.none () Set.univ fgt) :
    θ_run defs (onTc (τ := τ) (main (F := F))) ⟨m, fun _ => 0, ρ⟩ (fun r => ∀ c : Dev nD,
      (∀ w, ((dat m c).toRForget fgt).ArrAt w cfg0.N (r.2.mem ((spec0 w).arr.view.loc (c : Thread nD τ))))
      ∧ ∀ b ∈ Pipeline.restRefs sig spec0, r.2.mem ((c : Thread nD τ).loc b) = V m c b) := by
  classical
  exact Pipeline.RDat.θ_run_region_pf (fun q => (cfgs q).toPCfg (Val := Elt F)) (fun q => (cfgs q).toPCfg_adm)
    (fun _ c => (dat m c).toRForget fgt) () cellOf_inj (0 : Fin 1) winFacts₀0 (Pipeline.OwnSemFacts.none spec0) (Pipeline.PreFacts.none _) emb₁ defs₀ Variants.none m ρ main
    (fun c => (hbody c).toRForget) block_pos0 arr_whole0 stage_whole0 (fun _ _ => rfl)
    (G := fun _ => iprop(emp)) (u₀ := u₀)
    (hu₀ := by
      iintro Hu; imodintro
      isplitl [Hu]
      · iapply (show (ownU _ : sProp 𝕄) ⊢ BI.own (emb₁ (initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c)
    (hpf := fun _ k => k.elim0)
    (X := fun _ => iprop(emp)) (Y := fun _ => iprop(emp))
    (Z := fun c => Pipeline.unscopedRestP (Ix := Unit) (Name := ℕ) (U := UR sig nD τ) (Lvl := ℕ) _ spec0 c (V m c))
    (hX := fun c => by
      iintro ⟨HU, -, -, -, -, -⟩; imodintro
      isplitr; · iempintro
      iexact HU)
    (hin := fun c => by iintro -; iempintro)
    (hout := fun c => by
      rw [Pipeline.ownSems0_none, scopedRest0_eq]
      iintro -; isplitr; · iempintro
      isplitr <;> iempintro)
    (QY := fun c s => ∀ b ∈ Pipeline.restRefsP sig _ spec0, s.mem ((c : Thread nD τ).loc b) = V m c b)
    (hY := fun c s' => by
      iintro ⟨-, HU, HSI⟩
      unfold Pipeline.unscopedRestP
      imodintro
      iapply (pointsTo_read_all (Pipeline.restRefsP sig _ spec0) (fun b => (c : Thread nD τ).loc b) (V m c) s')
      isplitl [HU] <;> iassumption)
    (hQ := fun s h c => ⟨fun w => (h c).1 w, Pipeline.rest_of_restP _ spec0 (fun k => k.elim0) c (V m c) s (fun k => k.elim0) (h c).2.1 (h c).2.2⟩)

/-- With every window unnamed: the body runs on whatever the three buffers hold and leaves them holding something. -/
theorem body_unnamed (c : Dev nD) :
    BodyObligationLoose (dat m c) (defs₀ (F := F)) Variants.none () Set.univ (fun _ => true) := fun t => by
  rw [bigSep_W0]
  try rw [bigSep_W0]
  dsimp only
  rw [show (dat m c).Φ t.succ = (dat m c).Φ t.castSucc from rfl,
    show (dat m c).owesAt () t.succ = (dat m c).owesAt () t.castSucc from rfl]
  show _ ⊢ wp frame (wpE (defs₀ (F := F)) Variants.none (c : Thread nD τ) none) Set.univ (bodyAt0 t) _
  unfold bodyAt0
  iintro ⟨HΦ, Ho, ⟨%X0, H0⟩, ⟨%X1, H1⟩, ⟨%X2, H2⟩⟩
  iapply (sound_kernel (F := F) c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The arguments are buffers that are neither staging buffers nor arrays of the kernel. -/
theorem rest_arg0 : main_arg0 ∈ Pipeline.restRefs sig spec0 := Pipeline.mem_restRefs_of _ rfl (by decide)
theorem rest_arg1 : main_arg1 ∈ Pipeline.restRefs sig spec0 := Pipeline.mem_restRefs_of _ rfl (by decide)
theorem rest_arg2 : main_arg2 ∈ Pipeline.restRefs sig spec0 := Pipeline.mem_restRefs_of _ rfl (by decide)
theorem rest_arg3 : main_arg3 ∈ Pipeline.restRefs sig spec0 := Pipeline.mem_restRefs_of _ rfl (by decide)
theorem rest_arg4 : main_arg4 ∈ Pipeline.restRefs sig spec0 := Pipeline.mem_restRefs_of _ rfl (by decide)
theorem rest_arg5 : main_arg5 ∈ Pipeline.restRefs sig spec0 := Pipeline.mem_restRefs_of _ rfl (by decide)

/-- THE FRAME: the program ends, faults nowhere, and its six argument arrays end as they began. -/
theorem frame_run : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨((h c).2 main_arg0 rest_arg0).trans (V_main_arg0 m c),
      ((h c).2 main_arg1 rest_arg1).trans (V_main_arg1 m c),
      ((h c).2 main_arg2 rest_arg2).trans (V_main_arg2 m c),
      ((h c).2 main_arg3 rest_arg3).trans (V_main_arg3 m c),
      ((h c).2 main_arg4 rest_arg4).trans (V_main_arg4 m c),
      ((h c).2 main_arg5 rest_arg5).trans (V_main_arg5 m c)⟩) (run_fgt m ρ (fun _ => true) (body_unnamed m))

end Cert.Kernel.Gram

end
-- ==== Proof.GramBodyIdeal.lean ====
/-
  One grid point of the kernel: it loads the whole row block (1024 x 64) and the whole column block (1024 x 64)
  from their staging buffers and stores, over the whole output staging buffer (1024 x 1024), the logistic function
  of every inner product of a row of the first with a row of the second. The two input buffers are left as they
  were found; what the output buffer held before is not read.
-/
import proofs.«117433_j86045374808276_1_alg».proof.Proof.Gen.KernelIdeal.Launch
import proofs.«117433_j86045374808276_1_alg».proof.Proof.Gen.KernelIdeal.Skeleton
import proofs.«117433_j86045374808276_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 1024 x 1024 output block, as the rectangle the body's one store goes through. -/
abbrev rOut : Rect S1024x1024 := Rect.unit (s := S1024x1024) ![0, 0] S1024x1024.size inb_S1024x1024_S1024x1024_0_0

/-- The one store covers the output buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

theorem zero_off : (![0, 0] : Fin 2 → Nat) = fun _ => 0 := funext fun a => by fin_cases a <;> rfl

set_option maxHeartbeats 1000000 in
/-- The body on whole staging memrefs holding `x0`, `x1` and anything: it ends with the inputs' buffers as they
    were and the output's at the body's one pure value of them. -/
theorem sound_kernel (c : Dev nD) (E : Set ℕ) (i : grid0.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0__sigmoid_outer_kernel i arg2 harg2 arg3 harg3 arg4 harg4) K := by
  simp only [cc0__sigmoid_outer_kernel_eq_skeleton]; unfold cc0__sigmoid_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero zero_off]
  simp only [View.readAt_eq_ld, View.ld_unit_zero (S := S1024x64) zero_off]

end Cert.KernelIdeal.Gram

end
-- ==== Proof.GramDataIdeal.lean ====
/-
  The proof data of the kernel's run over its 10 x 10 grid. Window 0 (the row block, 1024 x 64) and window 1 (the column block,
  1024 x 64) read ONE array, the node features, so that array's ownership is dealt to them in two halves; window 2
  is the 1024 x 1024 output block. The last block on either axis overhangs the array (10000 = 9 * 1024 + 784) and
  is cut at the array's end; what a staging buffer holds past the cut is not named. Here: what each
  staging buffer holds after the body at each point, and how the arrays' ownership reaches the windows.
-/
import proofs.«117433_j86045374808276_1_alg».proof.Proof.GramHostIdeal
import proofs.«117433_j86045374808276_1_alg».proof.Proof.GramBodyIdeal
import Idealize.ShloMosaic.Lib.Pipeline.Kit
import Idealize.ShloMosaic.Lib.Pipeline.Frame

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero word, the filler of the part of a staging buffer past the array's end (never read back). -/
abbrev fill0 {s : Shape} : s.Idx → Elt F .f32 := fun _ => Scalar.ofBits .f32 0#32

/-- The row block at point `t`: rows of the node features inside the array. -/
def rowBlk (c : Dev nD) (t : Fin cfg0.N) : (win0_0.xblock (grid0.coords t)).Idx → Elt F .f32 :=
  (win0_0.blk t).view.read (Elt F) (V m c (Pipeline.arrRef spec0 0))
/-- The column block at point `t`. -/
def colBlk (c : Dev nD) (t : Fin cfg0.N) : (win0_1.xblock (grid0.coords t)).Idx → Elt F .f32 :=
  (win0_1.blk t).view.read (Elt F) (V m c (Pipeline.arrRef spec0 1))

/-- The two input blocks filled out to the staging buffers' size. -/
def rowBuf (c : Dev nD) (t : Fin cfg0.N) : S1024x64.Idx → Elt F .f32 := win0_0.fill (grid0.coords t) fill0 (rowBlk m c t)
def colBuf (c : Dev nD) (t : Fin cfg0.N) : S1024x64.Idx → Elt F .f32 := win0_1.fill (grid0.coords t) fill0 (colBlk m c t)

/-- The proof data: the arrays as the host part left them; after the body the input buffers hold their blocks and
    the output buffer the body's value of them (on the part inside the array: all three windows are loose); the
    node features are held in two halves, one per input window. -/
def dat (c : Dev nD) : Dat τ (Elt F) Unit ℕ (UR sig nD τ) ℕ cfg0 c where
  A w := V m c (Pipeline.arrRef spec0 w)
  after w t := match w with
    | ⟨0, _⟩ => rowBuf m c t
    | ⟨1, _⟩ => colBuf m c t
    | ⟨2, _⟩ => k0_pay1 (rowBuf m c t) (colBuf m c t)
  Φ _ := iprop(emp)
  q w := match w with
    | ⟨0, _⟩ => fullShare.left
    | ⟨1, _⟩ => fullShare.right
    | ⟨2, _⟩ => fullShare
  owed _ := 0

theorem dat_A (c : Dev nD) (w : Fin cfg0.W) : (dat m c).A w = V m c (Pipeline.arrRef spec0 w) := by dsimp only [dat]

/-- The buffers behind the kernel's arrays: the node features and the result. -/
theorem arr_image : Finset.univ.image (Pipeline.arrRef spec0) = {main_v87, main_v88} := by decide

/-- The node features whole are their two halves, one for each input window; the result is the output window's. -/
theorem arrays_of_bufs (c : Dev nD) :
    (Pipeline.arrBufs (Ix := Unit) (Name := ℕ) (U := UR sig nD τ) (Lvl := ℕ) spec0 c (V m c) : sProp 𝕄) ⊢ (dat m c).arrays (dat m c).A := by
  unfold Pipeline.arrBufs Dat.arrays
  rw [arr_image, bigSep_W0, BI.bigSep_insert (by decide : main_v87 ∉ ({main_v88} : Finset (Ref sig .tc))), BI.bigSep_singleton]
  rw [(arr_whole0 0).set_eq_univ, (arr_whole0 2).set_eq_univ]
  have h0 : (dat m c).share 0 = fullShare.left := rfl
  have h1 : (dat m c).share 1 = fullShare.right := rfl
  have h2 : (dat m c).share 2 = fullShare := rfl
  rw [h0, h1, h2, dat_A, dat_A, dat_A]
  change iprop((((c : Thread nD τ).loc main_v87) ↦{fullShare} V m c main_v87) ∗ (((c : Thread nD τ).loc main_v88) ↦{fullShare} V m c main_v88)) ⊢ _
  refine (sep_mono (pointsTo_share (PosShare.mem_left_op_right fullShare)).1 .rfl).trans ?_
  iintro ⟨⟨Hl, Hr⟩, H88⟩
  isplitl [Hl]; · iexact Hl
  isplitl [Hr]; · iexact Hr
  iexact H88

end Cert.KernelIdeal.Gram

end
-- ==== Proof.GramLaunchIdeal.lean ====
/-
  The kernel's run over its grid, stated once for any choice of windows whose staging contents are left unnamed:
  from any memory with zero counters every weakly fair execution of the program ends, every buffer that is no
  array of the kernel (the six arguments among them) ends as the host part left it, and each array of the kernel
  ends at contents the proof data allows. With every window unnamed the body has nothing to say beyond that it
  runs: that is the frame — the program ends, faults nowhere, and leaves its arguments as they were.
-/
import proofs.«117433_j86045374808276_1_alg».proof.Proof.GramDataIdeal

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: every staging cell's owner at round 0 and a token for every transfer of the pipeline. -/
def u₀ : UR sig nD τ := initOf (Pipeline.cells cfgs cellOf_inj) (Pipeline.launchToks cfgs cellOf_inj)

set_option maxHeartbeats 4000000 in
set_option backward.isDefEq.respectTransparency.types false in
/-- THE RUN, the windows `fgt` marks left unnamed: from any memory with zero counters every weakly fair execution of the
    program ends; each array of the kernel then holds contents the proof data allows after every write-back, and every
    other buffer that is no staging buffer what the host part left in it. -/
theorem run_fgt (fgt : Fin cfg0.W → Bool)
    (hbody : ∀ c, BodyObligationLoose (dat m c) (defs₀ (F := F)) Variants.none () Set.univ fgt) :
    θ_run defs (onTc (τ := τ) (main (F := F))) ⟨m, fun _ => 0, ρ⟩ (fun r => ∀ c : Dev nD,
      (∀ w, ((dat m c).toRForget fgt).ArrAt w cfg0.N (r.2.mem ((spec0 w).arr.view.loc (c : Thread nD τ))))
      ∧ ∀ b ∈ Pipeline.restRefs sig spec0, r.2.mem ((c : Thread nD τ).loc b) = V m c b) := by
  classical
  exact Pipeline.RDat.θ_run_region_pf (fun q => (cfgs q).toPCfg (Val := Elt F)) (fun q => (cfgs q).toPCfg_adm)
    (fun _ c => (dat m c).toRForget fgt) () cellOf_inj (0 : Fin 1) winFacts₀0 (Pipeline.OwnSemFacts.none spec0) (Pipeline.PreFacts.none _) emb₁ defs₀ Variants.none m ρ main
    (fun c => (hbody c).toRForget) block_pos0 arr_whole0 stage_whole0 (fun _ _ => rfl)
    (G := fun _ => iprop(emp)) (u₀ := u₀)
    (hu₀ := by
      iintro Hu; imodintro
      isplitl [Hu]
      · iapply (show (ownU _ : sProp 𝕄) ⊢ BI.own (emb₁ (initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c)
    (hpf := fun _ k => k.elim0)
    (X := fun _ => iprop(emp)) (Y := fun _ => iprop(emp))
    (Z := fun c => Pipeline.unscopedRestP (Ix := Unit) (Name := ℕ) (U := UR sig nD τ) (Lvl := ℕ) _ spec0 c (V m c))
    (hX := fun c => by
      iintro ⟨HU, -, -, -, -, -⟩; imodintro
      isplitr; · iempintro
      iexact HU)
    (hin := fun c => by iintro -; iempintro)
    (hout := fun c => by
      rw [Pipeline.ownSems0_none, scopedRest0_eq]
      iintro -; isplitr; · iempintro
      isplitr <;> iempintro)
    (QY := fun c s => ∀ b ∈ Pipeline.restRefsP sig _ spec0, s.mem ((c : Thread nD τ).loc b) = V m c b)
    (hY := fun c s' => by
      iintro ⟨-, HU, HSI⟩
      unfold Pipeline.unscopedRestP
      imodintro
      iapply (pointsTo_read_all (Pipeline.restRefsP sig _ spec0) (fun b => (c : Thread nD τ).loc b) (V m c) s')
      isplitl [HU] <;> iassumption)
    (hQ := fun s h c => ⟨fun w => (h c).1 w, Pipeline.rest_of_restP _ spec0 (fun k => k.elim0) c (V m c) s (fun k => k.elim0) (h c).2.1 (h c).2.2⟩)

/-- With every window unnamed: the body runs on whatever the three buffers hold and leaves them holding something. -/
theorem body_unnamed (c : Dev nD) :
    BodyObligationLoose (dat m c) (defs₀ (F := F)) Variants.none () Set.univ (fun _ => true) := fun t => by
  rw [bigSep_W0]
  try rw [bigSep_W0]
  dsimp only
  rw [show (dat m c).Φ t.succ = (dat m c).Φ t.castSucc from rfl,
    show (dat m c).owesAt () t.succ = (dat m c).owesAt () t.castSucc from rfl]
  show _ ⊢ wp frame (wpE (defs₀ (F := F)) Variants.none (c : Thread nD τ) none) Set.univ (bodyAt0 t) _
  unfold bodyAt0
  iintro ⟨HΦ, Ho, ⟨%X0, H0⟩, ⟨%X1, H1⟩, ⟨%X2, H2⟩⟩
  iapply (sound_kernel (F := F) c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The arguments are buffers that are neither staging buffers nor arrays of the kernel. -/
theorem rest_arg0 : main_arg0 ∈ Pipeline.restRefs sig spec0 := Pipeline.mem_restRefs_of _ rfl (by decide)
theorem rest_arg1 : main_arg1 ∈ Pipeline.restRefs sig spec0 := Pipeline.mem_restRefs_of _ rfl (by decide)
theorem rest_arg2 : main_arg2 ∈ Pipeline.restRefs sig spec0 := Pipeline.mem_restRefs_of _ rfl (by decide)
theorem rest_arg3 : main_arg3 ∈ Pipeline.restRefs sig spec0 := Pipeline.mem_restRefs_of _ rfl (by decide)
theorem rest_arg4 : main_arg4 ∈ Pipeline.restRefs sig spec0 := Pipeline.mem_restRefs_of _ rfl (by decide)
theorem rest_arg5 : main_arg5 ∈ Pipeline.restRefs sig spec0 := Pipeline.mem_restRefs_of _ rfl (by decide)

/-- THE FRAME: the program ends, faults nowhere, and its six argument arrays end as they began. -/
theorem frame_run : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨((h c).2 main_arg0 rest_arg0).trans (V_main_arg0 m c),
      ((h c).2 main_arg1 rest_arg1).trans (V_main_arg1 m c),
      ((h c).2 main_arg2 rest_arg2).trans (V_main_arg2 m c),
      ((h c).2 main_arg3 rest_arg3).trans (V_main_arg3 m c),
      ((h c).2 main_arg4 rest_arg4).trans (V_main_arg4 m c),
      ((h c).2 main_arg5 rest_arg5).trans (V_main_arg5 m c)⟩) (run_fgt m ρ (fun _ => true) (body_unnamed m))

end Cert.KernelIdeal.Gram

end
-- ==== Proof.GramPayload.lean ====
/-
  The kernel body's one pure value, read at an index, over the extended reals: entry (p, q) of the 1024 x 1024
  block is the logistic function of the inner product of row p of the first operand with row q of the second.
  The two shape casts are to the operand's own shape, hence the identity; the product accumulates into the zero
  block, hence is the bare sum over the one contracted axis (axis 1 of both operands, 64 long).
-/
import proofs.«117433_j86045374808276_1_alg».proof.Proof.Gen.KernelIdeal.Skeleton
import proofs.«117433_j86045374808276_1_alg».proof.Proof.GramSpec
import Idealize.ShloMosaic.Lib.ValueIdx
import Idealize.ShloMosaic.Lib.Pipeline.Value
import Idealize.ShloMosaic.PureOps.Ideal.Laws

noncomputable section

open scoped BigOperators

namespace Cert.KernelIdeal.Gram

open Cert.KernelIdeal Cert.KernelIdeal.Gen Idealize.ShloMosaic Idealize.ShloMosaic.ValueIdx

/-! ## The operand indices of the product, axis by axis

  The left operand keeps its axis 0 (the result's axis 0) and contracts its axis 1; the right operand keeps its
  axis 0 (the result's axis 1) and contracts its axis 1. -/

theorem lhs_pay_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_pay_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_pay_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_pay_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-! ## The product into the zero block, at an index -/

/-- Entry (p, q) of the product of `A` with the transpose of `B`, accumulated into zero: the inner product of row
    p of `A` with row q of `B`. -/
theorem matmul_zero_apply (A B : FVec Ideal S1024x64 .f32) (p q : Fin 1024) :
    matmul dot_S1024x64_S1024x64_S1024x1024_1_1_0_0_n_n (some .fp32) A B
        (constant (F := Ideal) S1024x1024 .f32 0x00000000#32) (ix2 p q)
      = ∑ k : Fin 64, A (ix2 p k) * B (ix2 q k) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k := funext fun a => Fin.ext (by
    match a with
    | ⟨0, _⟩ => exact lhs_pay_0 _ _
    | ⟨1, _⟩ => exact (lhs_pay_1 _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k := funext fun a => Fin.ext (by
    match a with
    | ⟨0, _⟩ => exact rhs_pay_0 _ _
    | ⟨1, _⟩ => exact (rhs_pay_1 _ _).trans hk)
  rw [el, er]

/-! ## The payload at an index -/

/-- Entry (p, q) of the block the body stores: the logistic function of the inner product of row p of the first
    operand with row q of the second. -/
theorem pay_apply (X0 X1 : Vec Ideal S1024x64 .f32) (p q : Fin 1024) :
    k0_pay1 (F := Ideal) X0 X1 (ix2 p q) = Ideal.logistic (∑ k : Fin 64, X0 (ix2 p k) * X1 (ix2 q k)) := by
  unfold k0_pay1
  rw [shapeCast_self, shapeCast_self]
  show FloatOps.logistic (matmul dot_S1024x64_S1024x64_S1024x1024_1_1_0_0_n_n (some .fp32) X0 X1
        (constant (F := Ideal) S1024x1024 .f32 0x00000000#32) (ix2 p q)) = _
  rw [Ideal.logistic_def, matmul_zero_apply]

end Cert.KernelIdeal.Gram

end
-- ==== Proof.GramBodyExact.lean ====
/-
  The kernel body's obligation at every grid point, with what every staging buffer holds named: the two input
  buffers hold the row block and the column block of the node features (past the array's end, words nothing
  reads), and the body leaves in the output buffer, on the part inside the array, the logistic function of the
  inner products of the rows of the one with the rows of the other.
-/
import proofs.«117433_j86045374808276_1_alg».proof.Proof.GramDataIdeal
import proofs.«117433_j86045374808276_1_alg».proof.Proof.GramPayload

set_option maxRecDepth 16384

noncomputable section

open scoped BigOperators

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ)

/-! ## What the body finds in each buffer -/

theorem after_0 (c : Dev nD) (t : Fin cfg0.N) : (dat m c).after (0 : Fin 3) t = rowBuf m c t := by dsimp only [dat]
theorem after_1 (c : Dev nD) (t : Fin cfg0.N) : (dat m c).after (1 : Fin 3) t = colBuf m c t := by dsimp only [dat]
theorem after_2 (c : Dev nD) (t : Fin cfg0.N) : (dat m c).after (2 : Fin 3) t = k0_pay1 (rowBuf m c t) (colBuf m c t) := by dsimp only [dat]

theorem blockOf_0 (c : Dev nD) (t : Fin cfg0.N) : (dat m c).blockOf (0 : Fin 3) t = rowBlk m c t := by
  unfold Dat.blockOf rowBlk; rw [dat_A]
theorem blockOf_1 (c : Dev nD) (t : Fin cfg0.N) : (dat m c).blockOf (1 : Fin 3) t = colBlk m c t := by
  unfold Dat.blockOf colBlk; rw [dat_A]

theorem hclip_0 (t t' : Fin cfg0.N) (h : (cfg0.win 0).index t = (cfg0.win 0).index t') :
    (cfg0.win 0).clip (cfg0.grid.coords t) = (cfg0.win 0).clip (cfg0.grid.coords t') := by
  funext a
  show Pipeline.Clip.of ((cfg0.win 0).index t a) _ _ = Pipeline.Clip.of ((cfg0.win 0).index t' a) _ _
  rw [h]

theorem before_0 (c : Dev nD) (t : Fin cfg0.N) (d : (cfg0.win 0).block.Idx → Elt Ideal (cfg0.win 0).elt) :
    (dat m c).before (0 : Fin 3) t d = win0_0.fill (grid0.coords t) d (rowBlk m c t) := by
  rw [(dat m c).before_in_eq_fetched (0 : Fin 3) rfl (fun _ => rfl) hclip_0
    (fun t => by rw [after_0, blockOf_0]; unfold rowBuf; exact win0_0.cut_fill _ _ _) t d]
  unfold Dat.fetched; rw [blockOf_0]

theorem before_1 (c : Dev nD) (t : Fin cfg0.N) (d : (cfg0.win 1).block.Idx → Elt Ideal (cfg0.win 1).elt) :
    (dat m c).before (1 : Fin 3) t d = win0_1.fill (grid0.coords t) d (colBlk m c t) := by
  unfold Dat.before; rw [if_pos (fetch0_1 t)]
  unfold Dat.fetched; rw [blockOf_1]

theorem fetch_2 (t : Fin cfg0.N) : (cfg0.win 2).fetch t = false := rfl

theorem before_2 (c : Dev nD) (t : Fin cfg0.N) (d : (cfg0.win 2).block.Idx → Elt Ideal (cfg0.win 2).elt) :
    (dat m c).before (2 : Fin 3) t d = d := by
  unfold Dat.before
  rw [if_neg (by rw [fetch_2 t]; exact Bool.false_ne_true)]
  by_cases h0 : t.val = 0
  · rw [if_pos h0]
  · rw [if_neg h0]; exact if_pos (flush0_2 _)

/-! ## The value the body stores, on the part of the output block inside the array -/

/-- Where a block's leading part is filled, what filled out the rest is not read. -/
theorem fill_irrel {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The output block is cut on its rows as the row block is and on its columns as the column block is on its rows;
    the input blocks' 64 columns are never cut. -/
theorem xsize_2_0 (i : grid0.Coords) : win0_2.xsize i 0 = win0_0.xsize i 0 := rfl
theorem xsize_2_1 (i : grid0.Coords) : win0_2.xsize i 1 = win0_1.xsize i 0 := rfl
theorem xsize_0_1 (i : grid0.Coords) : win0_0.xsize i 1 = 64 := rfl
theorem xsize_1_1 (i : grid0.Coords) : win0_1.xsize i 1 = 64 := rfl

/-- Row p of the row block is inside the array wherever entry (p, q) of the output block is. -/
theorem moved_row (i : grid0.Coords) (j : (win0_2.xblock i).Idx) (p : Fin 1024) (hp : p.val = (j 0).val) (k : Fin 64) :
    win0_0.moved i (ix2 p k) = true :=
  (win0_0.moved_iff i _).mpr fun a => by
    match a with
    | ⟨0, _⟩ =>
      show p.val < win0_0.xsize i 0
      rw [hp, ← xsize_2_0]; exact (j 0).isLt
    | ⟨1, _⟩ =>
      show k.val < win0_0.xsize i 1
      rw [xsize_0_1]; exact k.isLt

theorem moved_col (i : grid0.Coords) (j : (win0_2.xblock i).Idx) (q : Fin 1024) (hq : q.val = (j 1).val) (k : Fin 64) :
    win0_1.moved i (ix2 q k) = true :=
  (win0_1.moved_iff i _).mpr fun a => by
    match a with
    | ⟨0, _⟩ =>
      show q.val < win0_1.xsize i 0
      rw [hq, ← xsize_2_1]; exact (j 1).isLt
    | ⟨1, _⟩ =>
      show k.val < win0_1.xsize i 1
      rw [xsize_1_1]; exact k.isLt

/-- On the part of the output block inside the array the body's value reads only rows of the two input blocks that
    are inside the array: it is the same whatever fills the input buffers out past the array's end. -/
theorem pay_cut (i : grid0.Coords) (d0 e0 : S1024x64.Idx → Elt Ideal .f32) (g0 : (win0_0.xblock i).Idx → Elt Ideal .f32)
    (d1 e1 : S1024x64.Idx → Elt Ideal .f32) (g1 : (win0_1.xblock i).Idx → Elt Ideal .f32) :
    win0_2.cut i (k0_pay1 (F := Ideal) (win0_0.fill i d0 g0) (win0_1.fill i d1 g1))
      = win0_2.cut i (k0_pay1 (F := Ideal) (win0_0.fill i e0 g0) (win0_1.fill i e1 g1)) := by
  funext j
  have hj : win0_2.xinj i j = ix2 (⟨(j 0).val, Nat.lt_of_lt_of_le (j 0).isLt (win0_2.xsize_le i 0)⟩ : Fin 1024)
      (⟨(j 1).val, Nat.lt_of_lt_of_le (j 1).isLt (win0_2.xsize_le i 1)⟩ : Fin 1024) := by
    funext a
    match a with
    | ⟨0, _⟩ => rfl
    | ⟨1, _⟩ => rfl
  show k0_pay1 (F := Ideal) _ _ (win0_2.xinj i j) = k0_pay1 (F := Ideal) _ _ (win0_2.xinj i j)
  rw [hj, pay_apply, pay_apply]
  refine congrArg Ideal.logistic (Finset.sum_congr rfl fun k _ => ?_)
  rw [fill_irrel win0_0 i d0 e0 g0 (moved_row i j _ rfl k), fill_irrel win0_1 i d1 e1 g1 (moved_col i j _ rfl k)]

/-! ## The obligation -/

theorem cut_rowBuf (c : Dev nD) (t : Fin cfg0.N) : win0_0.cut (grid0.coords t) (rowBuf m c t) = rowBlk m c t := by
  unfold rowBuf; exact win0_0.cut_fill _ _ _
theorem cut_colBuf (c : Dev nD) (t : Fin cfg0.N) : win0_1.cut (grid0.coords t) (colBuf m c t) = colBlk m c t := by
  unfold colBuf; exact win0_1.cut_fill _ _ _

/-- At every grid point the body, handed the two input buffers at their blocks (filled out with anything) and the
    output buffer at anything, hands the input buffers back as they were and the output buffer at the value whose
    part inside the array is the named one. -/
theorem body_exact (c : Dev nD) : BodyObligationLoose (dat (F := Ideal) m c) (defs₀ (F := Ideal)) Variants.none () Set.univ := fun t => by
  rw [bigSep_W0, bigSep_W0]
  simp only
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%d2, H2⟩⟩
  rw [before_0 m c t d0, before_1 m c t d1, before_2 m c t d2, after_0, after_1, after_2]
  iapply (sound_kernel (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (rowBlk m c t)) (win0_1.fill (grid0.coords t) d1 (colBlk m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t) (rowBuf m c t)))
    rw [cut_rowBuf]
  isplitl [H1]
  · iexists d1
    change _ ⊢ owns (c : Thread nD τ) (stage0_1 (cfg0.slots t 1)) fullShare (win0_1.fill (grid0.coords t) d1 (win0_1.cut (grid0.coords t) (colBuf m c t)))
    rw [cut_colBuf]
  · iexists k0_pay1 (F := Ideal) (win0_0.fill (grid0.coords t) d0 (rowBlk m c t)) (win0_1.fill (grid0.coords t) d1 (colBlk m c t))
    change _ ⊢ owns (c : Thread nD τ) (stage0_2 (cfg0.slots t 2)) fullShare (win0_2.fill (α := Elt Ideal .f32) (grid0.coords t)
      (k0_pay1 (F := Ideal) (win0_0.fill (grid0.coords t) d0 (rowBlk m c t)) (win0_1.fill (grid0.coords t) d1 (colBlk m c t)))
      (win0_2.cut (α := Elt Ideal .f32) (grid0.coords t) (k0_pay1 (F := Ideal) (rowBuf m c t) (colBuf m c t))))
    rw [win0_2.fill_congr_cut (grid0.coords t) (by unfold rowBuf colBuf; exact pay_cut (grid0.coords t) d0 fill0 (rowBlk m c t) d1 fill0 (colBlk m c t))]

end Cert.KernelIdeal.Gram

end
-- ==== Proof.GramBlocks.lean ====
/-
  From the blocks to the whole result, over the extended reals. The kernel runs over a 10 x 10 grid; at the point
  with coordinates (a, b) it reads rows 1024 a .. of the node features as the row block and rows 1024 b .. as the
  column block, and writes block (a, b) of the 10000 x 10000 result. Since 10000 = 9 * 1024 + 784, a block at
  coordinate 9 is cut to its 784 rows (or columns) inside the array. Here: what each point writes back is its block
  of the specification of the node features (entry (i, j) the logistic function of the inner product of rows i
  and j), the blocks cover the result, and so the result ends holding the specification.
-/
import proofs.«117433_j86045374808276_1_alg».proof.Proof.GramDataIdeal
import proofs.«117433_j86045374808276_1_alg».proof.Proof.GramPayload
import proofs.«117433_j86045374808276_1_alg».proof.Proof.GramSpec
import Idealize.ShloMosaic.Lib.Pipeline.Value

set_option maxRecDepth 16384

noncomputable section

open scoped BigOperators

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ## The schedule, in closed form

  Point `t` of the 10 x 10 grid (second coordinate fastest) has coordinates (t / 10, t % 10). The row block moves
  with the first coordinate, the column block with the second, the output block with both. A block on a row axis
  is cut to 784 rows at coordinate 9 (10000 = 9 * 1024 + 784); the 64 columns are never cut. -/

theorem idx_facts : ∀ t : Fin cfg0.N,
    win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = t.val % 10 :=
  (by decide +kernel : ∀ t : Fin grid0.N, _)

theorem xsize_facts : ∀ t : Fin cfg0.N,
    win0_0.xsize (grid0.coords t) (0 : Fin 2) = (if t.val / 10 = 9 then 784 else 1024)
    ∧ win0_0.xsize (grid0.coords t) (1 : Fin 2) = 64
    ∧ win0_1.xsize (grid0.coords t) (0 : Fin 2) = (if t.val % 10 = 9 then 784 else 1024)
    ∧ win0_1.xsize (grid0.coords t) (1 : Fin 2) = 64
    ∧ win0_2.xsize (grid0.coords t) (0 : Fin 2) = (if t.val / 10 = 9 then 784 else 1024)
    ∧ win0_2.xsize (grid0.coords t) (1 : Fin 2) = (if t.val % 10 = 9 then 784 else 1024) :=
  (by decide +kernel : ∀ t : Fin grid0.N, _)

/-! ## The input buffers, inside the cut -/

/-- A row of the row buffer inside the cut is that row of the node features. -/
theorem rowBuf_apply (c : Dev nD) (t : Fin cfg0.N) (p : Fin 1024) (k : Fin 64)
    (hp : p.val < win0_0.xsize (grid0.coords t) (0 : Fin 2)) (r : Fin 10000) (hr : r.val = win0_0.index t (0 : Fin 2) * 1024 + p.val) :
    rowBuf m c t (ix2 p k) = V m c main_v87 (ix2 r k) := by
  obtain ⟨e0, e1, e2, e3, e4, e5⟩ := idx_facts t
  obtain ⟨x0, x1, x2, x3, x4, x5⟩ := xsize_facts t
  have hmv : win0_0.moved (grid0.coords t) (ix2 p k) = true := (win0_0.moved_iff _ _).mpr fun a => by
    match a with
    | ⟨0, _⟩ => exact hp
    | ⟨1, _⟩ => show k.val < win0_0.xsize (grid0.coords t) (1 : Fin 2); rw [x1]; exact k.isLt
  unfold rowBuf Window.fill
  rw [dif_pos hmv]
  unfold rowBlk
  rw [View.read_apply, cast_eq]
  refine congrArg (V m c main_v87) (funext fun a => Fin.ext ?_)
  match a with
  | ⟨0, _⟩ => show win0_0.index t (0 : Fin 2) * 1024 + 1 * p.val = r.val; omega
  | ⟨1, _⟩ => show win0_0.index t (1 : Fin 2) * 64 + 1 * k.val = k.val; omega

/-- A row of the column buffer inside the cut is that row of the node features. -/
theorem colBuf_apply (c : Dev nD) (t : Fin cfg0.N) (q : Fin 1024) (k : Fin 64)
    (hq : q.val < win0_1.xsize (grid0.coords t) (0 : Fin 2)) (r : Fin 10000) (hr : r.val = win0_1.index t (0 : Fin 2) * 1024 + q.val) :
    colBuf m c t (ix2 q k) = V m c main_v87 (ix2 r k) := by
  obtain ⟨e0, e1, e2, e3, e4, e5⟩ := idx_facts t
  obtain ⟨x0, x1, x2, x3, x4, x5⟩ := xsize_facts t
  have hmv : win0_1.moved (grid0.coords t) (ix2 q k) = true := (win0_1.moved_iff _ _).mpr fun a => by
    match a with
    | ⟨0, _⟩ => exact hq
    | ⟨1, _⟩ => show k.val < win0_1.xsize (grid0.coords t) (1 : Fin 2); rw [x3]; exact k.isLt
  unfold colBuf Window.fill
  rw [dif_pos hmv]
  unfold colBlk
  rw [View.read_apply, cast_eq]
  refine congrArg (V m c main_v87) (funext fun a => Fin.ext ?_)
  match a with
  | ⟨0, _⟩ => show win0_1.index t (0 : Fin 2) * 1024 + 1 * q.val = r.val; omega
  | ⟨1, _⟩ => show win0_1.index t (1 : Fin 2) * 64 + 1 * k.val = k.val; omega

/-! ## What a point writes back -/

/-- The specification at an index, over any features. -/
theorem gram_at (h : FVec Ideal ⟨2, ![10000, 64]⟩ .f32) (i : (⟨2, ![10000, 10000]⟩ : Shape).Idx) :
    Cert.GramSpec.gramLogistic h i = Ideal.logistic (∑ k : Fin 64, h (ix2 (i 0) k) * h (ix2 (i 1) k)) := rfl

/-- What point `t` writes back — the part of the body's value inside the array — is block `t` of the specification
    of the node features. -/
theorem flushed_eq (c : Dev nD) (t : Fin cfg0.N) :
    (dat (F := Ideal) m c).flushed 2 t = ((cfg0.win 2).blk t).view.read (Elt Ideal) (Cert.GramSpec.gramLogistic (V m c main_v87)) := by
  show (cfg0.win 2).cut (grid0.coords t) ((dat (F := Ideal) m c).after 2 t) = _
  dsimp only [dat]
  obtain ⟨e0, e1, e2, e3, e4, e5⟩ := idx_facts t
  obtain ⟨x0, x1, x2, x3, x4, x5⟩ := xsize_facts t
  funext j
  have hj0 : (j 0).val < win0_2.xsize (grid0.coords t) (0 : Fin 2) := (j 0).isLt
  have hj1 : (j 1).val < win0_2.xsize (grid0.coords t) (1 : Fin 2) := (j 1).isLt
  have hp : (j 0).val < 1024 := Nat.lt_of_lt_of_le hj0 (win0_2.xsize_le (grid0.coords t) (0 : Fin 2))
  have hq : (j 1).val < 1024 := Nat.lt_of_lt_of_le hj1 (win0_2.xsize_le (grid0.coords t) (1 : Fin 2))
  have hx : win0_2.xinj (grid0.coords t) j = ix2 (⟨(j 0).val, hp⟩ : Fin 1024) (⟨(j 1).val, hq⟩ : Fin 1024) :=
    funext fun a => Fin.ext (by
      match a with
      | ⟨0, _⟩ => rfl
      | ⟨1, _⟩ => rfl)
  show k0_pay1 (F := Ideal) (rowBuf m c t) (colBuf m c t) (win0_2.xinj (grid0.coords t) j) = _
  rw [hx, pay_apply, View.read_apply, cast_eq, gram_at]
  have h0 : ((((cfg0.win 2).blk t).view.emb j) (0 : Fin 2)).val = win0_2.index t (0 : Fin 2) * 1024 + 1 * (j 0).val := rfl
  have h1 : ((((cfg0.win 2).blk t).view.emb j) (1 : Fin 2)).val = win0_2.index t (1 : Fin 2) * 1024 + 1 * (j 1).val := rfl
  refine congrArg Ideal.logistic (Finset.sum_congr rfl fun k _ => ?_)
  rw [rowBuf_apply m c t ⟨(j 0).val, hp⟩ k (by rw [x0, ← x4]; exact hj0) ((((cfg0.win 2).blk t).view.emb j) (0 : Fin 2)) (by rw [h0, e0, e4]; show _ = _ + (j 0).val; omega),
    colBuf_apply m c t ⟨(j 1).val, hq⟩ k (by rw [x2, ← x5]; exact hj1) ((((cfg0.win 2).blk t).view.emb j) (1 : Fin 2)) (by rw [h1, e2, e5]; show _ = _ + (j 1).val; omega)]

/-! ## The blocks cover the result -/

/-- An index of the result is in point `t`'s block iff each coordinate is among the block's coordinates inside the
    array. -/
theorem mem_blk (t : Fin cfg0.N) (i : S10000x10000.Idx) :
    i ∈ ((cfg0.win 2).blk t).view.set ↔ ∀ a : Fin 2, win0_2.index t a * S1024x1024.size a ≤ (i a).val
      ∧ (i a).val < win0_2.index t a * S1024x1024.size a + win0_2.xsize (grid0.coords t) a := by
  show i ∈ ((View.whole main_v88).slice (win0_2.rect t)).set ↔ _
  rw [View.set_slice_whole, Rect.mem_set_unit]
  exact Iff.rfl

/-- Entry (i, j) of the result is written by the point with coordinates (i / 1024, j / 1024). -/
theorem cover (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  have hN : cfg0.N = 100 := N_0
  obtain ⟨t, tv⟩ : ∃ t : Fin cfg0.N, t.val = (i 0).val / 1024 * 10 + (i 1).val / 1024 :=
    ⟨⟨(i 0).val / 1024 * 10 + (i 1).val / 1024, by rw [hN]; omega⟩, rfl⟩
  obtain ⟨e0, e1, e2, e3, e4, e5⟩ := idx_facts t
  obtain ⟨x0, x1, x2, x3, x4, x5⟩ := xsize_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + win0_2.xsize (grid0.coords t) (0 : Fin 2)
    rw [e4, x4, tv]
    split <;> omega
  | ⟨1, _⟩ =>
    show win0_2.index t (1 : Fin 2) * 1024 ≤ (i 1).val ∧ (i 1).val < win0_2.index t (1 : Fin 2) * 1024 + win0_2.xsize (grid0.coords t) (1 : Fin 2)
    rw [e5, x5, tv]
    split <;> omega

/-! ## The result -/

/-- After the run the result array holds the specification of the node features. -/
theorem final (c : Dev nD) : (dat (F := Ideal) m c).arrAt 2 cfg0.N = Cert.GramSpec.gramLogistic (V m c main_v87) :=
  (dat (F := Ideal) m c).arrAt_eq_of_cover 2 (Cert.GramSpec.gramLogistic (V m c main_v87)) (fun t _ => flushed_eq m c t) cover

end Cert.KernelIdeal.Gram

end
-- ==== Proof.GramValue.lean ====
/-
  The idealized kernel's program, run with every staging buffer named: it ends with the result array holding, at
  (i, j), the logistic function of the inner product of rows i and j of the node features the host part computed,
  and with its arguments as they began.
-/
import proofs.«117433_j86045374808276_1_alg».proof.Proof.GramLaunchIdeal
import proofs.«117433_j86045374808276_1_alg».proof.Proof.GramBodyExact
import proofs.«117433_j86045374808276_1_alg».proof.Proof.GramBlocks

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c : Thread nD τ).loc main_v88) = Cert.GramSpec.gramLogistic (V m c main_v87)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨(((dat m c).toRForget_arrAt_iff (fgt := fun _ => false) (w := 2) rfl _ _).mp ((h c).1 2)).trans (final m c),
      ((h c).2 main_arg0 rest_arg0).trans (V_main_arg0 m c),
      ((h c).2 main_arg1 rest_arg1).trans (V_main_arg1 m c),
      ((h c).2 main_arg2 rest_arg2).trans (V_main_arg2 m c),
      ((h c).2 main_arg3 rest_arg3).trans (V_main_arg3 m c),
      ((h c).2 main_arg4 rest_arg4).trans (V_main_arg4 m c),
      ((h c).2 main_arg5 rest_arg5).trans (V_main_arg5 m c)⟩) (run_fgt m ρ (fun _ => false) (fun c => body_exact m c))

end Cert.KernelIdeal.Gram

end
-- ==== Proof.lean ====
/-
  The certificate of the pairwise link-probability kernel: two graph-convolution layers on the host produce node
  features h (10000 x 64), and the result is the logistic function of every inner product of two rows of h
  (10000 x 10000). The kernel's program computes the inner products block by block on a 10 x 10 grid and applies the
  logistic function in one operation; the reference transposes h, takes one matrix product and spells the
  logistic function as 1 / (1 + e^(-s)). Over the extended reals both are, entry by entry,
  1 / (1 + e^(-⟨h i, h j⟩)) of the SAME h (the host operations are the same on both sides), and the order in which a
  sum of 64 products is taken does not matter. The idealization rewrote nothing, so `preserves` asks nothing.
  The three frames: the kernel's two programs run to the end leaving their arguments as they were (the blocks on
  the last row and column of the grid overhang the arrays and are cut; nothing is claimed of what lies past the
  cut), and the reference is a straight line of host operations.
-/
import proofs.«117433_j86045374808276_1_alg».proof.Defs
import proofs.«117433_j86045374808276_1_alg».proof.Proof.Gen.Kernel
import proofs.«117433_j86045374808276_1_alg».proof.Proof.Gen.KernelIdeal
import proofs.«117433_j86045374808276_1_alg».proof.Proof.Gen.ReferenceIdeal
import proofs.«117433_j86045374808276_1_alg».proof.Proof.Gen.Pre_finite_inputs
import proofs.«117433_j86045374808276_1_alg».proof.Proof.RefRunP
import proofs.«117433_j86045374808276_1_alg».proof.Proof.RefReadP
import proofs.«117433_j86045374808276_1_alg».proof.Proof.GramRef
import proofs.«117433_j86045374808276_1_alg».proof.Proof.GramHostEq
import proofs.«117433_j86045374808276_1_alg».proof.Proof.GramLaunch
import proofs.«117433_j86045374808276_1_alg».proof.Proof.GramValue
import Idealize.ShloMosaic.Adequacy
import Idealize.ShloMosaic.Init

noncomputable section

namespace Cert.Proof

open Idealize.ShloMosaic Idealize.ShloMosaic.TcCoe Idealize.SL.Sem

/-- The word-level program runs to the end and leaves its arguments as they were. -/
theorem frame_k : Cert.frame_Kernel (hKernel := Cert.Kernel.Gen.facts) (hPre_finite_inputs := Cert.Pre_finite_inputs.Gen.facts) :=
  fun m ρ _ => Cert.Kernel.Gram.frame_run (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Gram.frame_run (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the logistic function of the Gram matrix of the same node features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GramSpec.gramLogistic (Cert.KernelIdeal.Gram.V m c Cert.KernelIdeal.main_v87),
    Cert.KernelIdeal.Gram.value_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v95_eq, Cert.ReferenceIdeal.GramRef.ref_eq]
  show _ = Cert.GramSpec.gramLogistic (Cert.KernelIdeal.Gram.V m c Cert.KernelIdeal.main_v87)
  rw [Cert.KernelIdeal.Gram.V_h m c,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
